-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg6 : FVec F S1 .f32) (main_arg7 : FVec F S1x1 .f32) (main_arg8 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1 .f32 := Host.absf main_arg7
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S500000 32) (main_arg2 : IVec S500000 32) (main_arg3 : FVec F S128x256 .f32) (main_arg4 : FVec F S128 .f32) (main_arg5 : FVec F S1x128 .f32) (main_arg6 : FVec F S1 .f32) (main_arg7 : FVec F S1x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_arg8 main_v13 main_v16
-- ==== Kernel.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S128x1 : Shape := ⟨2, ![128, 1]⟩
abbrev S10000x256 : Shape := ⟨2, ![10000, 256]⟩
abbrev S10000x1 : Shape := ⟨2, ![10000, 1]⟩
abbrev S10000x128 : Shape := ⟨2, ![10000, 128]⟩

abbrev nBuf : Space → Nat
  | .hbm => 39
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1, .f32⟩
  | .hbm, ⟨8, _⟩ => ⟨S1, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S500000x256, .f32⟩
  | .hbm, ⟨28, _⟩ => ⟨S500000x256, .bf16⟩
  | .hbm, ⟨29, _⟩ => ⟨S256x128, .f32⟩
  | .hbm, ⟨30, _⟩ => ⟨S256x128, .bf16⟩
  | .hbm, ⟨31, _⟩ => ⟨S1x128, .f32⟩
  | .hbm, ⟨32, _⟩ => ⟨S128x1, .f32⟩
  | .hbm, ⟨33, _⟩ => ⟨S128x1, .bf16⟩
  | .hbm, ⟨34, _⟩ => ⟨S1x1, .f32⟩
  | .hbm, ⟨35, _⟩ => ⟨S1x1, .f32⟩
  | .hbm, ⟨36, _⟩ => ⟨S1x1, .bf16⟩
  | .hbm, ⟨37, _⟩ => ⟨S1x1, .f32⟩
  | .hbm, ⟨38, _⟩ => ⟨S500000x1, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S1x128, .f32⟩
  | .local _ .vmem, ⟨4, _⟩ => ⟨S128x1, .bf16⟩
  | .local _ .vmem, ⟨5, _⟩ => ⟨S1x1, .f32⟩
  | .local _ .vmem, ⟨6, _⟩ => ⟨S1x1, .bf16⟩
  | .local _ .vmem, ⟨7, _⟩ => ⟨S1x1, .f32⟩
  | .local _ .vmem, ⟨8, _⟩ => ⟨S10000x1, .f32⟩
  | .local _ .vmem, ⟨9, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bitsLt_bf16_f32 : FTy.bits .bf16 < FTy.bits .f32
  transposes_S128x256_S256x128_1_0 : S128x256.Transposes [1, 0] S256x128
  shapeCasts_S128_S1x128 : S128.ShapeCasts S1x128
  transposes_S1x128_S128x1_1_0 : S1x128.Transposes [1, 0] S128x1
  shapeCasts_S1_S1x1 : S1.ShapeCasts S1x1
  transposes_S1x1_S1x1_1_0 : S1x1.Transposes [1, 0] S1x1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x128_S500000x1_S500000x128_1_0_n_n_0_1_1128_wf : GatherDims.WF S100000x128 S500000x1 S500000x128 [1] [0] [] [0] [] 1 ![1, 128]
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []
  dot_S10000x1_S1x1_S10000x1_1_0_0_1_n_n_wf : DotDims.WF S10000x1 S1x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S500000x256.size a
  hwx0_0 : ∀ i : grid0.Coords, EltTy.bits .bf16 = 32 ∨ (Rect.block (s := S500000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .bf16 = 32 ∨ (Rect.block (s := S128x1) S128x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .bf16 = 32 ∨ (Rect.block (s := S1x1) S1x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x1.size a ≤ S500000x1.size a
  hwx0_7 : ∀ i : grid0.Coords, EltTy.bits .f32 = 32 ∨ (Rect.block (s := S500000x1) S10000x1.size (cc0_transform_7 i) (hinb0_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x1_S1x1_S10000x1_1_0_0_1_n_n : DotDims S10000x1 S1x1 S10000x1 where
  lhsContracting := [1]
  rhsContracting := [0]
  lhsNonContracting := [0]
  rhsNonContracting := [1]
  lhsBatch := []
  rhsBatch := []
  wf := dot_S10000x1_S1x1_S10000x1_1_0_0_1_n_n_wf

abbrev win0_0 : Pipeline.Window sig grid0 :=
  Pipeline.Window.ofSpec (Memref.whole main_v15) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S10000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S_ : Shape := ⟨0, ![]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S128x1 : Shape := ⟨2, ![128, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x256, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x1, .f32⟩
  | .hbm, ⟨8, _⟩ => ⟨S1, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S500000x256, .f32⟩
  | .hbm, ⟨28, _⟩ => ⟨S256x128, .f32⟩
  | .hbm, ⟨29, _⟩ => ⟨S500000x128, .f32⟩
  | .hbm, ⟨30, _⟩ => ⟨S1x128, .f32⟩
  | .hbm, ⟨31, _⟩ => ⟨S500000x128, .f32⟩
  | .hbm, ⟨32, _⟩ => ⟨S500000x128, .f32⟩
  | .hbm, ⟨33, _⟩ => ⟨S_, .f32⟩
  | .hbm, ⟨34, _⟩ => ⟨S500000x128, .f32⟩
  | .hbm, ⟨35, _⟩ => ⟨S500000x128, .f32⟩
  | .hbm, ⟨36, _⟩ => ⟨S128x1, .f32⟩
  | .hbm, ⟨37, _⟩ => ⟨S500000x1, .f32⟩
  | .hbm, ⟨38, _⟩ => ⟨S1x1, .f32⟩
  | .hbm, ⟨39, _⟩ => ⟨S500000x1, .f32⟩
  | .hbm, ⟨40, _⟩ => ⟨S500000x1, .f32⟩
  | .hbm, ⟨41, _⟩ => ⟨S_, .f32⟩
  | .hbm, ⟨42, _⟩ => ⟨S500000x1, .f32⟩
  | .hbm, ⟨43, _⟩ => ⟨S500000x1, .f32⟩
  | .hbm, ⟨44, _⟩ => ⟨S1x1, .f32⟩
  | .hbm, ⟨45, _⟩ => ⟨S500000x1, .f32⟩
  | .hbm, ⟨46, _⟩ => ⟨S1x1, .f32⟩
  | .hbm, ⟨47, _⟩ => ⟨S500000x1, .f32⟩
  | .hbm, ⟨48, _⟩ => ⟨S500000x1, .f32⟩
  | .hbm, ⟨49, _⟩ => ⟨S_, .f32⟩
  | .hbm, ⟨50, _⟩ => ⟨S500000x1, .f32⟩
  | .hbm, ⟨51, _⟩ => ⟨S500000x1, .f32⟩
  | .hbm, ⟨52, _⟩ => ⟨S500000x1, .f32⟩
  | .hbm, ⟨53, _⟩ => ⟨S500000x1, .f32⟩
  | .hbm, ⟨54, _⟩ => ⟨S_, .f32⟩
  | .hbm, ⟨55, _⟩ => ⟨S500000x1, .f32⟩
  | .hbm, ⟨56, _⟩ => ⟨S500000x1, .f32⟩
  | .hbm, ⟨57, _⟩ => ⟨S_, .f32⟩
  | .hbm, ⟨58, _⟩ => ⟨S500000x1, .f32⟩
  | .hbm, ⟨59, _⟩ => ⟨S500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_cst : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call2_cst : Ref sig .tc := ⟨.hbm, 49, rfl⟩
abbrev main_call2_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  transposes_S1x1_S1x1_1_0 : S1x1.Transposes [1, 0] S1x1
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []
  dot_S500000x1_S1x1_S500000x1_1_0_0_1_n_n_wf : DotDims.WF S500000x1 S1x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def dot_S500000x1_S1x1_S500000x1_1_0_0_1_n_n : DotDims S500000x1 S1x1 S500000x1 where
  lhsContracting := [1]
  rhsContracting := [0]
  lhsNonContracting := [0]
  rhsNonContracting := [1]
  lhsBatch := []
  rhsBatch := []
  wf := dot_S500000x1_S1x1_S500000x1_1_0_0_1_n_n_wf

class Facts : Prop extends Facts₀ where

variable [Facts]
-- ==== Proof.Spec.lean ====
/-
  The edge scorer as one function of its arrays, on the extended reals.

  Every edge `e` carries a feature row `x e : Fin 256 → EReal` (the two endpoint rows of the node table laid side by
  side).  A LAYER sends a row `a : Fin K → EReal` to the row `j ↦ max (∑ k, a k * w k j + c j) 0`: an affine map followed
  by the rectifier.  The score of an edge is the logistic function of the third of three such layers (256 → 128 → 1 → 1).
  Both programs compute this; they differ only in how the weight arrays are laid out when the rows are formed, and in the
  order the sums are taken, which the commutative monoid of extended reals under addition does not see.
-/
import Idealize.ShloMosaic.PureOps.Ideal
import Idealize.ShloMosaic.Lib.ValueIdx

noncomputable section

namespace Cert.EdgeMlp

open Idealize.ShloMosaic Idealize.ShloMosaic.ValueIdx

/-- The rectifier's threshold: the word of `0.0`, kept as a word so that neither side ever evaluates it. -/
abbrev zero : EReal := Ideal.ofBits .f32 0x00000000#32

/-- One layer at one output unit `j`: the affine form of the input row against column `j` of the weights, plus the
    unit's bias, cut off below at the threshold. -/
def layer {K N : Nat} (a : Fin K → EReal) (w : Fin K → Fin N → EReal) (c : Fin N → EReal) (j : Fin N) : EReal :=
  max ((∑ k : Fin K, a k * w k j) + c j) zero

/-- The score of one feature row: three layers, then the logistic function `1 / (1 + e⁻ᶻ)`. -/
def score (x : Fin 256 → EReal) (w1 : Fin 256 → Fin 128 → EReal) (c1 : Fin 128 → EReal)
    (w2 : Fin 128 → Fin 1 → EReal) (c2 : Fin 1 → EReal) (w3 : Fin 1 → Fin 1 → EReal) (c3 : Fin 1 → EReal) (q : Fin 1) : EReal :=
  Ideal.logistic (layer (layer (layer x w1 c1) w2 c2) w3 c3 q)

/-- The whole result array: entry `(e, q)` is the score of edge `e`'s feature row, the weights given as the
    `[out, in]` matrices and the bias vectors the programs take as arguments (so unit `j`'s weight for input `k` is
    entry `(j, k)`). -/
def scores (X : (⟨2, ![500000, 256]⟩ : Shape).Idx → EReal) (W1 : (⟨2, ![128, 256]⟩ : Shape).Idx → EReal)
    (B1 : (⟨1, ![128]⟩ : Shape).Idx → EReal) (W2 : (⟨2, ![1, 128]⟩ : Shape).Idx → EReal) (B2 : (⟨1, ![1]⟩ : Shape).Idx → EReal)
    (W3 : (⟨2, ![1, 1]⟩ : Shape).Idx → EReal) (B3 : (⟨1, ![1]⟩ : Shape).Idx → EReal) :
    (⟨2, ![500000, 1]⟩ : Shape).Idx → EReal :=
  fun i => score (fun k => X (ix2 ⟨(i 0).val, idx2_lt0 i⟩ k)) (fun k j => W1 (ix2 j k)) (fun j => B1 (ix1 j))
    (fun k j => W2 (ix2 j k)) (fun j => B2 (ix1 j)) (fun k j => W3 (ix2 j k)) (fun j => B3 (ix1 j)) ⟨(i 1).val, idx2_lt1 i⟩

theorem scores_ix2 (X : (⟨2, ![500000, 256]⟩ : Shape).Idx → EReal) (W1 : (⟨2, ![128, 256]⟩ : Shape).Idx → EReal)
    (B1 : (⟨1, ![128]⟩ : Shape).Idx → EReal) (W2 : (⟨2, ![1, 128]⟩ : Shape).Idx → EReal) (B2 : (⟨1, ![1]⟩ : Shape).Idx → EReal)
    (W3 : (⟨2, ![1, 1]⟩ : Shape).Idx → EReal) (B3 : (⟨1, ![1]⟩ : Shape).Idx → EReal) (e : Fin 500000) (q : Fin 1) :
    scores X W1 B1 W2 B2 W3 B3 (ix2 e q)
      = score (fun k => X (ix2 e k)) (fun k j => W1 (ix2 j k)) (fun j => B1 (ix1 j))
          (fun k j => W2 (ix2 j k)) (fun j => B2 (ix1 j)) (fun k j => W3 (ix2 j k)) (fun j => B3 (ix1 j)) q := rfl

end Cert.EdgeMlp

end
-- ==== Proof.KernelEntry.lean ====
/-
  The kernel body's one stored value, read at an entry of its block.

  The body multiplies the point's [10000, 256] block of feature rows by the [256, 128] weight block, adds the [1, 128]
  bias row to every row, rectifies, and repeats with the [128, 1] and [1, 1] weight blocks and their [1, 1] biases;
  the changes of float format in between are the identity on extended reals, and a matrix product into a zero
  accumulator is the plain sum of products over the contraction index.  So entry `(p, q)` of the stored value is the
  score of row `p` of the feature block, with weight `(k, j)` of each layer read from the weight block at `(k, j)` (the
  blocks hold the matrices already transposed) and the biases read from row `0` of their blocks.
-/
import proofs.«106341_j80410377716239_1_alg».proof.Proof.Gen.KernelIdeal.Skeleton
import proofs.«106341_j80410377716239_1_alg».proof.Proof.Spec
import Idealize.ShloMosaic.PureOps.Ideal.Laws
import Idealize.ShloMosaic.Lib.ValueIdx
import Idealize.ShloMosaic.Lib.ValueLayout
import Idealize.ShloMosaic.Lib.KernelVsHost
import Idealize.ShloMosaic.Lib.StackMember
import Idealize.ShloMosaic.Lib.Pipeline.Value

noncomputable section

namespace Cert.EdgeMlp.Ker

open Idealize.ShloMosaic Idealize.ShloMosaic.ValueIdx
open Cert.KernelIdeal Cert.KernelIdeal.Gen

/-- An `M × K` by `K × N` product (rows against columns, no batch axis) into the zero accumulator, at entry
    `(p, j)`: the sum over `k` of the left operand's `(p, k)` times the right's `(k, j)`.  With a zero
    accumulator the kernel's product is the host's, whose entries the library reads as this sum. -/
theorem product_apply {M K N : Nat} {φ₁ φ₂ : FTy} (D : DotDims ⟨2, ![M, K]⟩ ⟨2, ![K, N]⟩ ⟨2, ![M, N]⟩)
    (hD : D = DotDims.plain M K N) (a : FVec Ideal ⟨2, ![M, K]⟩ φ₁) (b : FVec Ideal ⟨2, ![K, N]⟩ φ₂) (p : Fin M) (j : Fin N) :
    matmul D none a b (constant ⟨2, ![M, N]⟩ .f32 0x00000000#32) (ix2 p j) = ∑ k : Fin K, a (ix2 p k) * b (ix2 k j) := by
  subst hD
  rw [matmul_zero_eq_dotGeneral]
  exact StackMember.dotGeneral_plain_apply none a b p j

/-- The product plus the bias row broadcast down the rows, cut off below at the threshold, read at `(p, j)`: a layer
    of the left operand's row `p`, unit `j`'s weights being column `j` of the right operand and its bias entry
    `(0, j)` of the one-row bias block. -/
theorem layer_apply {M K N : Nat} {φ₁ φ₂ : FTy} (D : DotDims ⟨2, ![M, K]⟩ ⟨2, ![K, N]⟩ ⟨2, ![M, N]⟩)
    (hD : D = DotDims.plain M K N) (a : FVec Ideal ⟨2, ![M, K]⟩ φ₁) (b : FVec Ideal ⟨2, ![K, N]⟩ φ₂)
    (c : FVec Ideal ⟨2, ![1, N]⟩ .f32) (hc : (⟨2, ![1, N]⟩ : Shape).Broadcasts ⟨2, ![M, N]⟩) (p : Fin M) (j : Fin N) :
    maximumf (addf (matmul D none a b (constant ⟨2, ![M, N]⟩ .f32 0x00000000#32)) (broadcastTo ⟨2, ![M, N]⟩ c hc))
        (broadcast ⟨2, ![M, N]⟩ (Scalar.ofBits .f32 0x00000000#32)) (ix2 p j)
      = layer (fun k => a (ix2 p k)) (fun k j => b (ix2 k j)) (fun j => c (ix2 0 j)) j := by
  rw [maximumf_apply, addf_apply, product_apply D hD, broadcastTo_1b_ab_apply, broadcast_apply]
  rfl

/-- Entry `(p, q)` of the body's stored value is the score of row `p` of the feature block against the weight and bias
    blocks: the outermost layer is read first, and each narrowing in between is the identity. -/
theorem payload_apply (v0 : FVec Ideal S10000x256 .bf16) (v2 : FVec Ideal S256x128 .bf16) (v5 : FVec Ideal S1x128 .f32)
    (v12 : FVec Ideal S128x1 .bf16) (v15 : FVec Ideal S1x1 .f32) (v22 : FVec Ideal S1x1 .bf16) (v25 : FVec Ideal S1x1 .f32)
    (p : Fin 10000) (q : Fin 1) :
    k0_pay1 (F := Ideal) v0 v2 v5 v12 v15 v22 v25 (ix2 p q)
      = score (fun k => v0 (ix2 p k)) (fun k j => v2 (ix2 k j)) (fun j => v5 (ix2 0 j))
          (fun k j => v12 (ix2 k j)) (fun j => v15 (ix2 0 j)) (fun k j => v22 (ix2 k j)) (fun j => v25 (ix2 0 j)) q := by
  unfold k0_pay1 score
  simp only [shapeCast_self]
  refine (congrArg Ideal.logistic (layer_apply dot_S10000x1_S1x1_S10000x1_1_0_0_1_n_n rfl _ _ _ _ p q)).trans ?_
  simp only [truncf_apply, layer_apply dot_S10000x128_S128x1_S10000x1_1_0_0_1_n_n rfl,
    layer_apply dot_S10000x256_S256x128_S10000x128_1_0_0_1_n_n rfl]

end Cert.EdgeMlp.Ker

end
-- ==== Proof.KernelHost.lean ====
/-
  What the region finds in the arrays its windows stage.

  Before the call the program forms, from its arguments alone: the feature array (for every edge the node table's
  rows at the edge's two endpoints, a negative endpoint counted from the table's end, laid side by side), narrowed to
  the short float format; each weight matrix transposed and narrowed; each bias vector given a leading unit axis.
-/
import proofs.«106341_j80410377716239_1_alg».proof.Proof.Gen.KernelIdeal.Frame
import Idealize.ShloMosaic.Lib.StableHlo.Run

noncomputable section

namespace Cert.EdgeMlp.KerHost

open Idealize.ShloMosaic Idealize.ShloMosaic.TcCoe Idealize.SL.Sem Idealize.ShloMosaic.StableHlo
open Cert.KernelIdeal Cert.KernelIdeal.Gen

variable {F : FTy → Type} [FloatOps F]

/-- One endpoint's rows: endpoint `i < 0` reads row `i + 100000`, and the gather takes that row of the table. -/
def rows (h : (⟨S100000x128, .f32⟩ : BufTy).Contents (Elt F)) (idx : (⟨S500000, .i32⟩ : BufTy).Contents (Elt F)) :
    (⟨S500000x128, .f32⟩ : BufTy).Contents (Elt F) :=
  Host.gather gather_S100000x128_S500000x1_S500000x128_1_0_n_n_0_1_1128 h
    (broadcastInDim S500000x1 ![0] bcast_S500000_S500000x1_0
      (select (cmpi .slt idx (broadcastInDim S500000 ![] bcast_S_S500000 (constantI S_ 32 0#32)))
        (addi idx (broadcastInDim S500000 ![] bcast_S_S500000 (constantI S_ 32 100000#32))) idx))

/-- The feature array: the source rows and the destination rows side by side. -/
def feat (h : (⟨S100000x128, .f32⟩ : BufTy).Contents (Elt F)) (src dst : (⟨S500000, .i32⟩ : BufTy).Contents (Elt F)) :
    (⟨S500000x256, .f32⟩ : BufTy).Contents (Elt F) :=
  concatenate S500000x256 1 [⟨S500000x128, rows h src⟩, ⟨S500000x128, rows h dst⟩] concatenates_S500000x128_S500000x128_S500000x256_d1

variable (m : (ℓ : Loc nD τ sig) → Buf (Elt F) ℓ)

set_option maxRecDepth 8192 in
set_option maxHeartbeats 1000000 in
/-- Window 0's array: the feature array, narrowed. -/
theorem V_features (c : Dev nD) :
    V m c main_v15 = truncf .bf16 (feat (m ((c : Thread nD τ).loc main_arg0)) (m ((c : Thread nD τ).loc main_arg1)) (m ((c : Thread nD τ).loc main_arg2))) bitsLt_bf16_f32 := by
  dsimp only [V, hostOps0]
  after_results
  rfl

set_option maxRecDepth 8192 in
set_option maxHeartbeats 1000000 in
/-- Window 1's array: the first weight matrix transposed, narrowed. -/
theorem V_w1 (c : Dev nD) :
    V m c main_v17 = truncf .bf16 (transpose S256x128 [1, 0] (m ((c : Thread nD τ).loc main_arg3)) transposes_S128x256_S256x128_1_0) bitsLt_bf16_f32 := by
  dsimp only [V, hostOps0]
  after_results

set_option maxRecDepth 8192 in
set_option maxHeartbeats 1000000 in
/-- Window 2's array: the first bias vector as one row. -/
theorem V_b1 (c : Dev nD) :
    V m c main_v18 = shapeCast S1x128 (m ((c : Thread nD τ).loc main_arg4)) shapeCasts_S128_S1x128 := by
  dsimp only [V, hostOps0]
  after_results
  rfl

set_option maxRecDepth 8192 in
set_option maxHeartbeats 1000000 in
/-- Window 3's array: the second weight matrix transposed, narrowed. -/
theorem V_w2 (c : Dev nD) :
    V m c main_v20 = truncf .bf16 (transpose S128x1 [1, 0] (m ((c : Thread nD τ).loc main_arg5)) transposes_S1x128_S128x1_1_0) bitsLt_bf16_f32 := by
  dsimp only [V, hostOps0]
  after_results

set_option maxRecDepth 8192 in
set_option maxHeartbeats 1000000 in
/-- Window 4's array: the second bias as one row. -/
theorem V_b2 (c : Dev nD) :
    V m c main_v21 = shapeCast S1x1 (m ((c : Thread nD τ).loc main_arg6)) shapeCasts_S1_S1x1 := by
  dsimp only [V, hostOps0]
  after_results
  rfl

set_option maxRecDepth 8192 in
set_option maxHeartbeats 1000000 in
/-- Window 5's array: the third weight matrix transposed, narrowed. -/
theorem V_w3 (c : Dev nD) :
    V m c main_v23 = truncf .bf16 (transpose S1x1 [1, 0] (m ((c : Thread nD τ).loc main_arg7)) transposes_S1x1_S1x1_1_0) bitsLt_bf16_f32 := by
  dsimp only [V, hostOps0]
  after_results

set_option maxRecDepth 8192 in
set_option maxHeartbeats 1000000 in
/-- Window 6's array: the third bias as one row. -/
theorem V_b3 (c : Dev nD) :
    V m c main_v24 = shapeCast S1x1 (m ((c : Thread nD τ).loc main_arg8)) shapeCasts_S1_S1x1 := by
  dsimp only [V, hostOps0]
  after_results
  rfl

end Cert.EdgeMlp.KerHost

end
-- ==== Proof.KernelValue.lean ====
/-
  The kernel's result array, from its blocks.

  Grid point `t` stages rows `10000 t … 10000 t + 9999` of the feature array and, at every point, the whole of each
  weight and bias array; it writes back rows `10000 t … 10000 t + 9999` of the result.  Entry `(p, q)` of what it writes
  is the score of row `p` of its feature block, which is row `10000 t + p` of the feature array; the weight blocks read
  back the argument matrices transposed, and the bias blocks the argument vectors.  So every point writes its block of the
  one function `scores`, and since the fifty blocks tile the 500000 rows, the array ends holding `scores`.
-/
import proofs.«106341_j80410377716239_1_alg».proof.Proof.Gen.KernelIdeal.Value
import proofs.«106341_j80410377716239_1_alg».proof.Proof.KernelEntry
import proofs.«106341_j80410377716239_1_alg».proof.Proof.KernelHost
import proofs.«106341_j80410377716239_1_alg».proof.Proof.Spec
import Idealize.ShloMosaic.Lib.Pipeline.Value
import Idealize.ShloMosaic.Lib.ValueLayout

noncomputable section

namespace Cert.EdgeMlp.KerValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value
open Cert.EdgeMlp.KerHost Cert.EdgeMlp.Ker

variable (m : (ℓ : Loc nD τ sig) → Buf (Elt Ideal) ℓ) (ρ : Dev nD → PrngReg)

theorem hz : (![0, 0] : Fin 2 → Nat) = fun _ => 0 := funext fun a => by fin_cases a <;> rfl

/-- The grid has fifty points. -/
theorem point_lt (t : Fin cfg0.N) : t.val < 50 := lt_of_lt_of_eq t.isLt (show cfg0.N = 50 from N_0)

/-- The index maps over the grid: the feature window and the result window sit at block row `t`, every weight and bias
    window at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block, read at an entry -/

/-- The feature block at point `t`: entry `(p, k)` is entry `(10000 t + p, k)` of the feature array. -/
theorem features_blk (c : Dev nD) (t : Fin cfg0.N) (p : Fin 10000) (k : Fin 256) :
    (iblk m c 0 t : FVec Ideal S10000x256 .bf16) (ix2 p k)
      = feat (m ((c : Thread nD τ).loc main_arg0)) (m ((c : Thread nD τ).loc main_arg1)) (m ((c : Thread nD τ).loc main_arg2))
          (ix2 ⟨t.val * 10000 + p.val, by have := p.isLt; have := point_lt t; omega⟩ k) := by
  obtain ⟨e0, e1, -⟩ := idx_facts t
  unfold iblk
  rw [View.read_apply]
  show V m c main_v15 _ = _
  rw [V_features]
  show feat _ _ _ _ = _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 256 + 1 * k.val = k.val; rw [e1]; omega

/-- The first weight block: entry `(k, j)` is entry `(j, k)` of the first weight matrix. -/
theorem w1_blk (c : Dev nD) (t : Fin cfg0.N) (k : Fin 256) (j : Fin 128) :
    (iblk m c 1 t : FVec Ideal S256x128 .bf16) (ix2 k j) = (m ((c : Thread nD τ).loc main_arg3)) (ix2 j k) := by
  obtain ⟨-, -, e0, e1, -⟩ := idx_facts t
  have he : ((cfg0.win 1).blk t).view.emb (ix2 k j) = ix2 k j := by
    funext a
    apply Fin.ext
    match a with
    | ⟨0, _⟩ => show win0_1.index t (0 : Fin 2) * 256 + 1 * k.val = k.val; rw [e0]; omega
    | ⟨1, _⟩ => show win0_1.index t (1 : Fin 2) * 128 + 1 * j.val = j.val; rw [e1]; omega
  unfold iblk
  rw [View.read_apply]
  show V m c main_v17 _ = _
  rw [V_w1, he]
  exact transpose_ix2_apply _ _ k j

/-- The first bias block: entry `(0, j)` is entry `j` of the first bias vector. -/
theorem b1_blk (c : Dev nD) (t : Fin cfg0.N) (j : Fin 128) :
    (iblk m c 2 t : FVec Ideal S1x128 .f32) (ix2 0 j) = (m ((c : Thread nD τ).loc main_arg4)) (ix1 j) := by
  obtain ⟨-, -, -, -, e0, e1, -⟩ := idx_facts t
  have he : ((cfg0.win 2).blk t).view.emb (ix2 0 j) = ix2 0 j := by
    funext a
    apply Fin.ext
    match a with
    | ⟨0, _⟩ => show win0_2.index t (0 : Fin 2) * 1 + 1 * 0 = 0; rw [e0]
    | ⟨1, _⟩ => show win0_2.index t (1 : Fin 2) * 128 + 1 * j.val = j.val; rw [e1]; omega
  unfold iblk
  rw [View.read_apply]
  show V m c main_v18 _ = _
  rw [V_b1, he]
  exact shapeCast_a_1a_apply _ _ 0 j

/-- The second weight block: entry `(k, j)` is entry `(j, k)` of the second weight matrix. -/
theorem w2_blk (c : Dev nD) (t : Fin cfg0.N) (k : Fin 128) (j : Fin 1) :
    (iblk m c 3 t : FVec Ideal S128x1 .bf16) (ix2 k j) = (m ((c : Thread nD τ).loc main_arg5)) (ix2 j k) := by
  obtain ⟨-, -, -, -, -, -, e0, e1, -⟩ := idx_facts t
  have he : ((cfg0.win 3).blk t).view.emb (ix2 k j) = ix2 k j := by
    funext a
    apply Fin.ext
    match a with
    | ⟨0, _⟩ => show win0_3.index t (0 : Fin 2) * 128 + 1 * k.val = k.val; rw [e0]; omega
    | ⟨1, _⟩ => show win0_3.index t (1 : Fin 2) * 1 + 1 * j.val = j.val; rw [e1]; omega
  unfold iblk
  rw [View.read_apply]
  show V m c main_v20 _ = _
  rw [V_w2, he]
  exact transpose_ix2_apply _ _ k j

/-- The second bias block: entry `(0, j)` is entry `j` of the second bias vector. -/
theorem b2_blk (c : Dev nD) (t : Fin cfg0.N) (j : Fin 1) :
    (iblk m c 4 t : FVec Ideal S1x1 .f32) (ix2 0 j) = (m ((c : Thread nD τ).loc main_arg6)) (ix1 j) := by
  obtain ⟨-, -, -, -, -, -, -, -, e0, e1, -⟩ := idx_facts t
  have he : ((cfg0.win 4).blk t).view.emb (ix2 0 j) = ix2 0 j := by
    funext a
    apply Fin.ext
    match a with
    | ⟨0, _⟩ => show win0_4.index t (0 : Fin 2) * 1 + 1 * 0 = 0; rw [e0]
    | ⟨1, _⟩ => show win0_4.index t (1 : Fin 2) * 1 + 1 * j.val = j.val; rw [e1]; omega
  unfold iblk
  rw [View.read_apply]
  show V m c main_v21 _ = _
  rw [V_b2, he]
  exact shapeCast_a_1a_apply _ _ 0 j

/-- The third weight block: entry `(k, j)` is entry `(j, k)` of the third weight matrix. -/
theorem w3_blk (c : Dev nD) (t : Fin cfg0.N) (k : Fin 1) (j : Fin 1) :
    (iblk m c 5 t : FVec Ideal S1x1 .bf16) (ix2 k j) = (m ((c : Thread nD τ).loc main_arg7)) (ix2 j k) := by
  obtain ⟨-, -, -, -, -, -, -, -, -, -, e0, e1, -⟩ := idx_facts t
  have he : ((cfg0.win 5).blk t).view.emb (ix2 k j) = ix2 k j := by
    funext a
    apply Fin.ext
    match a with
    | ⟨0, _⟩ => show win0_5.index t (0 : Fin 2) * 1 + 1 * k.val = k.val; rw [e0]; omega
    | ⟨1, _⟩ => show win0_5.index t (1 : Fin 2) * 1 + 1 * j.val = j.val; rw [e1]; omega
  unfold iblk
  rw [View.read_apply]
  show V m c main_v23 _ = _
  rw [V_w3, he]
  exact transpose_ix2_apply _ _ k j

/-- The third bias block: entry `(0, j)` is entry `j` of the third bias vector. -/
theorem b3_blk (c : Dev nD) (t : Fin cfg0.N) (j : Fin 1) :
    (iblk m c 6 t : FVec Ideal S1x1 .f32) (ix2 0 j) = (m ((c : Thread nD τ).loc main_arg8)) (ix1 j) := by
  obtain ⟨-, -, -, -, -, -, -, -, -, -, -, -, e0, e1, -⟩ := idx_facts t
  have he : ((cfg0.win 6).blk t).view.emb (ix2 0 j) = ix2 0 j := by
    funext a
    apply Fin.ext
    match a with
    | ⟨0, _⟩ => show win0_6.index t (0 : Fin 2) * 1 + 1 * 0 = 0; rw [e0]
    | ⟨1, _⟩ => show win0_6.index t (1 : Fin 2) * 1 + 1 * j.val = j.val; rw [e1]; omega
  unfold iblk
  rw [View.read_apply]
  show V m c main_v24 _ = _
  rw [V_b3, he]
  exact shapeCast_a_1a_apply _ _ 0 j

/-! ## What a point writes back -/

/-- Over blocks known entry by entry: if the feature block holds rows `10000 t + p` of `X`, the weight blocks the
    transposed matrices and the bias blocks the vectors, the stored value at `y` is `scores` at the array index `i` that
    sits at `y` in block row `t`. -/
theorem stored_entry (x0 : FVec Ideal S10000x256 .bf16) (x1 : FVec Ideal S256x128 .bf16) (x2 : FVec Ideal S1x128 .f32)
    (x3 : FVec Ideal S128x1 .bf16) (x4 : FVec Ideal S1x1 .f32) (x5 : FVec Ideal S1x1 .bf16) (x6 : FVec Ideal S1x1 .f32)
    (X : S500000x256.Idx → EReal) (W1 : S128x256.Idx → EReal) (B1 : S128.Idx → EReal) (W2 : S1x128.Idx → EReal)
    (B2 : S1.Idx → EReal) (W3 : S1x1.Idx → EReal) (B3 : S1.Idx → EReal) (t : Nat) (ht : t < 50)
    (h0 : ∀ (p : Fin 10000) (k : Fin 256), x0 (ix2 p k) = X (ix2 ⟨t * 10000 + p.val, by have := p.isLt; omega⟩ k))
    (h1 : ∀ (k : Fin 256) (j : Fin 128), x1 (ix2 k j) = W1 (ix2 j k))
    (h2 : ∀ j : Fin 128, x2 (ix2 0 j) = B1 (ix1 j))
    (h3 : ∀ (k : Fin 128) (j : Fin 1), x3 (ix2 k j) = W2 (ix2 j k))
    (h4 : ∀ j : Fin 1, x4 (ix2 0 j) = B2 (ix1 j))
    (h5 : ∀ (k : Fin 1) (j : Fin 1), x5 (ix2 k j) = W3 (ix2 j k))
    (h6 : ∀ j : Fin 1, x6 (ix2 0 j) = B3 (ix1 j))
    (y : S10000x1.Idx) (i : S500000x1.Idx) (hi0 : (i 0).val = t * 10000 + (y 0).val) (hi1 : (i 1).val = (y 1).val) :
    k0_pay1 (F := Ideal) x0 x1 x2 x3 x4 x5 x6 y = scores X W1 B1 W2 B2 W3 B3 i := by
  obtain ⟨p, q, rfl⟩ : ∃ (p : Fin 10000) (q : Fin 1), y = ix2 p q := ⟨y 0, y 1, eq_ix2 y⟩
  have hb : t * 10000 + p.val < 500000 := by have := p.isLt; omega
  obtain ⟨e, q', rfl⟩ : ∃ (e : Fin 500000) (q' : Fin 1), i = ix2 e q' := ⟨i 0, i 1, eq_ix2 i⟩
  have he : e = ⟨t * 10000 + p.val, hb⟩ := Fin.ext hi0
  have hq : q' = q := Fin.ext hi1
  subst he hq
  rw [payload_apply, scores_ix2]
  simp only [h0, h1, h2, h3, h4, h5, h6]

/-- What the result array ends holding: `scores` of the feature array and the weight arguments. -/
abbrev result (c : Dev nD) : Buf (Elt Ideal) ((c : Thread nD τ).loc main_v25) :=
  scores (feat (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Point `t` writes back block `t` of `result`. -/
theorem flushed_eq (c : Dev nD) (t : Fin cfg0.N) :
    (dats m 0 c).flushed 7 t = ((cfg0.win 7).blk t).view.read (Elt Ideal) (result m c) := by
  obtain ⟨-, -, -, -, -, -, -, -, -, -, -, -, -, -, e0, e1⟩ := idx_facts t
  rw [Value.flushed7]
  unfold out0_7
  rw [View.canon_unit_zero hz]
  simp only [View.ld_unit_zero (S := S10000x256) hz, View.ld_unit_zero (S := S256x128) hz, View.ld_unit_zero (S := S1x128) hz,
    View.ld_unit_zero (S := S128x1) hz, View.ld_unit_zero (S := S1x1) hz]
  funext y
  show k0_pay1 (F := Ideal) (iblk m c 0 t) (iblk m c 1 t) (iblk m c 2 t) (iblk m c 3 t) (iblk m c 4 t) (iblk m c 5 t) (iblk m c 6 t) y
    = result m c (((cfg0.win 7).blk t).view.emb y)
  refine stored_entry (iblk m c 0 t) (iblk m c 1 t) (iblk m c 2 t) (iblk m c 3 t) (iblk m c 4 t) (iblk m c 5 t) (iblk m c 6 t)
    (feat (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    t.val (point_lt t)
    (fun p k => features_blk m c t p k) (fun k j => w1_blk m c t k j) (fun j => b1_blk m c t j) (fun k j => w2_blk m c t k j)
    (fun j => b2_blk m c t j) (fun k j => w3_blk m c t k j) (fun j => b3_blk m c t j) y (((cfg0.win 7).blk t).view.emb y) ?_ ?_
  · show win0_7.index t (0 : Fin 2) * 10000 + 1 * (y 0).val = t.val * 10000 + (y 0).val
    rw [e0]; omega
  · show win0_7.index t (1 : Fin 2) * 1 + 1 * (y 1).val = (y 1).val
    rw [e1]; omega

/-! ## The blocks tile the array -/

/-- An index of the result array is in point `t`'s block iff each coordinate is in the block's range on its axis. -/
theorem mem_blk (t : Fin cfg0.N) (i : S500000x1.Idx) :
    i ∈ ((cfg0.win 7).blk t).view.set ↔ ∀ a : Fin 2, win0_7.index t a * S10000x1.size a ≤ (i a).val ∧ (i a).val < win0_7.index t a * S10000x1.size a + S10000x1.size a := by
  show i ∈ ((View.whole main_v25).slice (win0_7.rect t)).set ↔ _
  rw [View.set_slice_whole, Rect.mem_set_unit]
  exact Iff.rfl

/-- Row `r` of the result is in the block of point `r / 10000`. -/
theorem covered (i : S500000x1.Idx) : ∃ t : Fin cfg0.N, (cfg0.win 7).flush t = true ∧ i ∈ ((cfg0.win 7).blk t).view.set := by
  have hi0 : (i 0).val < 500000 := (i 0).isLt
  have hi1 : (i 1).val < 1 := (i 1).isLt
  have hN : cfg0.N = 50 := N_0
  have hlt : (i 0).val / 10000 < cfg0.N := by rw [hN]; omega
  obtain ⟨-, -, -, -, -, -, -, -, -, -, -, -, -, -, e0, e1⟩ := idx_facts ⟨(i 0).val / 10000, hlt⟩
  refine ⟨⟨(i 0).val / 10000, hlt⟩, flush0_7 _, ?_⟩
  rw [mem_blk]
  intro a
  match a with
  | ⟨0, _⟩ =>
    show win0_7.index ⟨(i 0).val / 10000, hlt⟩ (0 : Fin 2) * 10000 ≤ (i 0).val
      ∧ (i 0).val < win0_7.index ⟨(i 0).val / 10000, hlt⟩ (0 : Fin 2) * 10000 + 10000
    rw [e0]
    show (i 0).val / 10000 * 10000 ≤ (i 0).val ∧ (i 0).val < (i 0).val / 10000 * 10000 + 10000
    omega
  | ⟨1, _⟩ =>
    show win0_7.index ⟨(i 0).val / 10000, hlt⟩ (1 : Fin 2) * 1 ≤ (i 1).val
      ∧ (i 1).val < win0_7.index ⟨(i 0).val / 10000, hlt⟩ (1 : Fin 2) * 1 + 1
    rw [e1]
    omega

/-- The result array after the run. -/
theorem final (c : Dev nD) : (dats m 0 c).arrAt 7 cfg0.N = result m c :=
  (dats m 0 c).arrAt_eq_of_cover 7 (result m c) (fun t _ => flushed_eq m c t) covered

/-- The run, read: the result array at `scores`, the arguments unchanged. -/
theorem run : θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.EdgeMlp.KerValue

end
-- ==== Proof.RefScores.lean ====
/-
  The reference's result array is the edge scorer of the feature array it builds.

  Read one operation at a time, entry `(e, j)` of each rectified product is a layer of the row before it: the
  contraction index runs over the row, the transposed weight matrix is read at `(j, k)`, and the bias, broadcast
  along the edges, is read at `j`.  The closing negate / exponential / add / divide is the logistic function spelt out.
-/
import proofs.«106341_j80410377716239_1_alg».proof.Proof.Gen.ReferenceIdeal.Read
import proofs.«106341_j80410377716239_1_alg».proof.Proof.Spec
import Idealize.ShloMosaic.PureOps.IdealRules

noncomputable section

namespace Cert.EdgeMlp.Ref

open Idealize.ShloMosaic Idealize.ShloMosaic.ValueIdx
open Cert.ReferenceIdeal Cert.ReferenceIdeal.Gen Cert.ReferenceIdeal.Read

variable (x0 : (⟨S100000x128, .f32⟩ : BufTy).Contents (Elt Ideal)) (x1 x2 : (⟨S500000, .i32⟩ : BufTy).Contents (Elt Ideal))
  (x3 : (⟨S128x256, .f32⟩ : BufTy).Contents (Elt Ideal)) (x4 : (⟨S128, .f32⟩ : BufTy).Contents (Elt Ideal))
  (x5 : (⟨S1x128, .f32⟩ : BufTy).Contents (Elt Ideal)) (x6 : (⟨S1, .f32⟩ : BufTy).Contents (Elt Ideal))
  (x7 : (⟨S1x1, .f32⟩ : BufTy).Contents (Elt Ideal)) (x8 : (⟨S1, .f32⟩ : BufTy).Contents (Elt Ideal))

/-- The first rectified product at `(e, j)`: the layer of edge `e`'s feature row against `W1`'s row `j`. -/
theorem first (e : Fin 500000) (j : Fin 128) :
    val_main_v20 (F := Ideal) x0 x1 x2 x3 x4 (ix2 e j)
      = layer (fun k => val_main_v14 (F := Ideal) x0 x1 x2 (ix2 e k)) (fun k j => x3 (ix2 j k)) (fun j => x4 (ix1 j)) j := by
  rw [val_main_v20_apply, val_main_v19_apply, val_main_v16_apply, val_main_v18_apply, val_main_v17_apply,
    val_main_call0_v0_apply, val_main_call0_cst_apply]
  have hl : ∀ k, lidx_main_v16 (ix2 e j) k = ix2 e k := fun k => funext fun a => Fin.ext (by
    match a with | ⟨0, _⟩ => rfl | ⟨1, _⟩ => rfl)
  have hr : ∀ k, idx_main_v15 (ridx_main_v16 (ix2 e j) k) = ix2 j k := fun k => funext fun a => Fin.ext (by
    match a with | ⟨0, _⟩ => rfl | ⟨1, _⟩ => rfl)
  have hb : idx_main_v17 (idx_main_v18 (ix2 e j)) = ix1 j := funext fun a => Fin.ext (by
    match a with | ⟨0, _⟩ => rfl)
  simp only [val_main_v15_apply, hl, hr, hb]
  rfl

/-- The second at `(e, j)`: the layer of the first's row `e` against `W2`'s row `j`. -/
theorem second (e : Fin 500000) (j : Fin 1) :
    val_main_v26 (F := Ideal) x0 x1 x2 x3 x4 x5 x6 (ix2 e j)
      = layer (fun k => val_main_v20 (F := Ideal) x0 x1 x2 x3 x4 (ix2 e k)) (fun k j => x5 (ix2 j k)) (fun j => x6 (ix1 j)) j := by
  rw [val_main_v26_apply, val_main_v25_apply, val_main_v22_apply, val_main_v24_apply, val_main_v23_apply,
    val_main_call1_v0_apply, val_main_call1_cst_apply]
  have hl : ∀ k, lidx_main_v22 (ix2 e j) k = ix2 e k := fun k => funext fun a => Fin.ext (by
    match a with | ⟨0, _⟩ => rfl | ⟨1, _⟩ => rfl)
  have hr : ∀ k, idx_main_v21 (ridx_main_v22 (ix2 e j) k) = ix2 j k := fun k => funext fun a => Fin.ext (by
    match a with | ⟨0, _⟩ => rfl | ⟨1, _⟩ => rfl)
  have hb : idx_main_v23 (idx_main_v24 (ix2 e j)) = ix1 j := funext fun a => Fin.ext (by
    match a with | ⟨0, _⟩ => exact (Nat.lt_one_iff.mp j.isLt).symm)
  simp only [val_main_v21_apply, hl, hr, hb]
  rfl

/-- The third at `(e, j)`: the layer of the second's row `e` against `W3`'s row `j`. -/
theorem third (e : Fin 500000) (j : Fin 1) :
    val_main_v32 (F := Ideal) x0 x1 x2 x3 x4 x5 x6 x7 x8 (ix2 e j)
      = layer (fun k => val_main_v26 (F := Ideal) x0 x1 x2 x3 x4 x5 x6 (ix2 e k)) (fun k j => x7 (ix2 j k)) (fun j => x8 (ix1 j)) j := by
  rw [val_main_v32_apply, val_main_v31_apply, val_main_v28_apply, val_main_v30_apply, val_main_v29_apply,
    val_main_call2_v0_apply, val_main_call2_cst_apply]
  have hl : ∀ k, lidx_main_v28 (ix2 e j) k = ix2 e k := fun k => funext fun a => Fin.ext (by
    match a with | ⟨0, _⟩ => rfl | ⟨1, _⟩ => rfl)
  have hr : ∀ k, idx_main_v27 (ridx_main_v28 (ix2 e j) k) = ix2 j k := fun k => funext fun a => Fin.ext (by
    match a with | ⟨0, _⟩ => rfl | ⟨1, _⟩ => rfl)
  have hb : idx_main_v29 (idx_main_v30 (ix2 e j)) = ix1 j := funext fun a => Fin.ext (by
    match a with | ⟨0, _⟩ => exact (Nat.lt_one_iff.mp j.isLt).symm)
  simp only [val_main_v27_apply, hl, hr, hb]
  rfl

/-- The word of `1.0` denotes the real one. -/
theorem one_word : Ideal.ofBits .f32 0x3F800000#32 = 1 := IdealRules.sign_bit.ideal_onePat .f32

/-- The closing four operations are the logistic function of the third layer. -/
theorem last (i : S500000x1.Idx) :
    val_main_v38 (F := Ideal) x0 x1 x2 x3 x4 x5 x6 x7 x8 i = Ideal.logistic (val_main_v32 (F := Ideal) x0 x1 x2 x3 x4 x5 x6 x7 x8 i) := by
  rw [val_main_v38_apply, val_main_v37_apply, val_main_cst_3_apply, val_main_v36_apply, val_main_v35_apply, val_main_cst_apply,
    val_main_v34_apply, val_main_v33_apply]
  simp only [Ideal.hostDivf_def, Ideal.addf_def, Ideal.hostUnary_exp_def, Ideal.hostNegf_def, Ideal.negf_def, Ideal.ofBits_def, one_word]
  rfl

/-- The reference's result array is `scores` of the feature array it concatenates and of the weight arguments. -/
theorem result_eq :
    val_main_v38 (F := Ideal) x0 x1 x2 x3 x4 x5 x6 x7 x8 = scores (val_main_v14 (F := Ideal) x0 x1 x2) x3 x4 x5 x6 x7 x8 := by
  funext i
  obtain ⟨e, q, rfl⟩ : ∃ (e : Fin 500000) (q : Fin 1), i = ix2 e q := ⟨i 0, i 1, eq_ix2 i⟩
  rw [scores_ix2, last, third]
  unfold score
  simp only [second, first]

end Cert.EdgeMlp.Ref

end
-- ==== Proof.Bridge.lean ====
/-
  Both programs form the feature array by the same operations of the same arguments: negative endpoints shifted by the
  table's length, one row of the node table gathered per endpoint, the two row arrays laid side by side.  The two
  printed texts of this prefix are one term.
-/
import proofs.«106341_j80410377716239_1_alg».proof.Proof.KernelHost
import proofs.«106341_j80410377716239_1_alg».proof.Proof.Gen.ReferenceIdeal.Read

noncomputable section

namespace Cert.EdgeMlp.Bridge

open Idealize.ShloMosaic

/-- The kernel program's feature array is the reference's concatenated stage. -/
theorem feat_eq {F : FTy → Type} [FloatOps F]
    (h : (⟨Cert.KernelIdeal.S100000x128, .f32⟩ : BufTy).Contents (Elt F))
    (src dst : (⟨Cert.KernelIdeal.S500000, .i32⟩ : BufTy).Contents (Elt F)) :
    Cert.EdgeMlp.KerHost.feat (F := F) h src dst = Cert.ReferenceIdeal.Read.val_main_v14 (F := F) h src dst := by
  unfold Cert.EdgeMlp.KerHost.feat Cert.EdgeMlp.KerHost.rows Cert.ReferenceIdeal.Read.val_main_v14
    Cert.ReferenceIdeal.Read.val_main_v6 Cert.ReferenceIdeal.Read.val_main_v13
    Cert.ReferenceIdeal.Read.val_main_v5 Cert.ReferenceIdeal.Read.val_main_v12
    Cert.ReferenceIdeal.Read.val_main_v4 Cert.ReferenceIdeal.Read.val_main_v11
    Cert.ReferenceIdeal.Read.val_main_v3 Cert.ReferenceIdeal.Read.val_main_v10
    Cert.ReferenceIdeal.Read.val_main_v1 Cert.ReferenceIdeal.Read.val_main_v8
    Cert.ReferenceIdeal.Read.val_main_v0 Cert.ReferenceIdeal.Read.val_main_v7
    Cert.ReferenceIdeal.Read.val_main_v2 Cert.ReferenceIdeal.Read.val_main_v9
    Cert.ReferenceIdeal.Read.val_main_c Cert.ReferenceIdeal.Read.val_main_c_0
    Cert.ReferenceIdeal.Read.val_main_c_1 Cert.ReferenceIdeal.Read.val_main_c_2
  rfl

end Cert.EdgeMlp.Bridge

end
-- ==== Proof.lean ====
/-
  An edge scorer for a graph: for each of 500000 edges the rows of a [100000, 128] node table at the edge's two
  endpoints are laid side by side into a 256-vector, which three rectified affine layers (256 → 128 → 1 → 1) and the
  logistic function turn into one score.

  The kernel program gathers and concatenates on the host, narrows the features and the transposed weights to the
  short float format, and runs the three layers on blocks of 10000 edges; the reference runs them on the whole arrays at
  full width.  On the extended reals narrowing is the identity, a matrix product into a zero accumulator is the host's
  product (a finite sum of products, in any order), the kernel's logistic operation is `1 / (1 + e⁻ᶻ)` as the reference
  spells it, and the fifty blocks tile the edges; so both result arrays are the one function `EdgeMlp.scores` of the
  arguments.  No finiteness of the inputs is used.

  The three frames are the generated ones (the reference's is its generated run with the result dropped); the
  idealization rewrote nothing, so `preserves` holds trivially.
-/
import proofs.«106341_j80410377716239_1_alg».proof.Defs
import proofs.«106341_j80410377716239_1_alg».proof.Proof.Gen.Kernel
import proofs.«106341_j80410377716239_1_alg».proof.Proof.Gen.Kernel.Skeleton
import proofs.«106341_j80410377716239_1_alg».proof.Proof.Gen.Kernel.Launch
import proofs.«106341_j80410377716239_1_alg».proof.Proof.Gen.Kernel.Points
import proofs.«106341_j80410377716239_1_alg».proof.Proof.Gen.Kernel.Frame
import proofs.«106341_j80410377716239_1_alg».proof.Proof.Gen.KernelIdeal
import proofs.«106341_j80410377716239_1_alg».proof.Proof.Gen.KernelIdeal.Skeleton
import proofs.«106341_j80410377716239_1_alg».proof.Proof.Gen.KernelIdeal.Launch
import proofs.«106341_j80410377716239_1_alg».proof.Proof.Gen.KernelIdeal.Points
import proofs.«106341_j80410377716239_1_alg».proof.Proof.Gen.KernelIdeal.Frame
import proofs.«106341_j80410377716239_1_alg».proof.Proof.Gen.ReferenceIdeal
import proofs.«106341_j80410377716239_1_alg».proof.Proof.Gen.Pre_finite_inputs
import proofs.«106341_j80410377716239_1_alg».proof.Proof.Gen.KernelIdeal.Value
import proofs.«106341_j80410377716239_1_alg».proof.Proof.Gen.ReferenceIdeal.Run
import proofs.«106341_j80410377716239_1_alg».proof.Proof.Gen.ReferenceIdeal.Read
import proofs.«106341_j80410377716239_1_alg».proof.Proof.KernelValue
import proofs.«106341_j80410377716239_1_alg».proof.Proof.RefScores
import proofs.«106341_j80410377716239_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `scores` of the feature array and the weight arguments: the kernel's
    by its blocks, the reference's operation by operation, the feature arrays being one term. -/
theorem algebraic : Cert.algebraic_KernelIdeal_ReferenceIdeal := by
  intro m ρ m' ρ' _ hagree
  refine ⟨fun c => Cert.EdgeMlp.KerValue.result m c, Cert.EdgeMlp.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8, Cert.ReferenceIdeal.Read.val_main_v38_eq, Cert.EdgeMlp.Ref.result_eq,
    ← Cert.EdgeMlp.Bridge.feat_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
